-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S1024x512 : Shape := ⟨2, ![1024, 512]⟩
abbrev S1x1024 : Shape := ⟨2, ![1, 1024]⟩
abbrev S1024x1 : Shape := ⟨2, ![1024, 1]⟩
abbrev S1024x1024 : Shape := ⟨2, ![1024, 1024]⟩
abbrev S512x1024 : Shape := ⟨2, ![512, 1024]⟩
abbrev S1024 : Shape := ⟨1, ![1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond4 (i : grid0.Coords) : BitVec 1 :=
  let arg1 : BitVec 32 := BitVec.ofNat 32 (i 1).val
  let c3_i32 : BitVec 32 := 3#32
  let v22 : BitVec 1 := Scalar.cmpi .eq arg1 c3_i32
  let arg2 : BitVec 32 := BitVec.ofNat 32 (i 2).val
  let c7_i32_12 : BitVec 32 := 7#32
  let v23 : BitVec 1 := Scalar.cmpi .eq arg2 c7_i32_12
  let v24 : BitVec 1 := Scalar.andi v22 v23
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1024 : S1024x1.Reduces [1] S1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  reducesTo_S4096x1_S4096_d1 : S4096x1.ReducesTo [1] S4096
  bcast_S_S4096x1 : S_.BroadcastsInDim S4096x1 (![] : Fin 0 → Fin S4096x1.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.RealValued.lean ====
/-
  Extended reals that are real numbers.

  Both programs end in `c * (…)` with `c = μ - (0 + μ) / 1`, where `μ` is a row maximum of `x · Wᵀ + b`.
  On the extended reals `μ - μ = 0` holds exactly when `μ` is a real number (`⊤ - ⊤ = ⊥`), so everything
  here is about staying inside the reals: sums and products of reals are real, a maximum over a non-empty
  family of reals taken from `⊥` is real, a maximum of something below `⊤` with a real is real; and for a
  real `μ` the centred value is `0`, which annihilates whatever it multiplies.
-/
import Idealize.ShloMosaic.PureOps.Ideal
import Idealize.ShloMosaic.PureOps.Ideal.Laws

noncomputable section

namespace Cert.RealValued

open Idealize.ShloMosaic

/-- `x` is (the image of) a real number. -/
def IsReal (x : EReal) : Prop := ∃ r : ℝ, x = (r : EReal)

theorem IsReal.lt_top {x : EReal} (h : IsReal x) : x < ⊤ := by
  obtain ⟨r, rfl⟩ := h; exact EReal.coe_lt_top r

theorem IsReal.bot_lt {x : EReal} (h : IsReal x) : ⊥ < x := by
  obtain ⟨r, rfl⟩ := h; exact EReal.bot_lt_coe r

theorem isReal_of_bounds {x : EReal} (h₁ : ⊥ < x) (h₂ : x < ⊤) : IsReal x :=
  ⟨x.toReal, (EReal.coe_toReal h₂.ne h₁.ne').symm⟩

theorem isReal_zero : IsReal 0 := ⟨0, by simp⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

/-- A finite sum of reals is real. -/
theorem isReal_sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A maximum taken from something below `⊤` over values below `⊤` stays below `⊤`. -/
theorem fold_max_lt_top {ι : Type} (s : Finset ι) (b : EReal) (f : ι → EReal) (hb : b < ⊤)
    (h : ∀ i ∈ s, f i < ⊤) : s.fold max b f < ⊤ :=
  (Finset.fold_max_lt ⊤).2 ⟨hb, h⟩

/-- A maximum over a family with a member above `⊥` is above `⊥`. -/
theorem bot_lt_fold_max {ι : Type} (s : Finset ι) (b : EReal) (f : ι → EReal) (i : ι) (hi : i ∈ s)
    (h : ⊥ < f i) : ⊥ < s.fold max b f :=
  (Finset.lt_fold_max ⊥).2 (Or.inr ⟨i, hi, h⟩)

/-- The maximum from `b < ⊤` over a non-empty family of reals is real. -/
theorem isReal_fold_max {ι : Type} (s : Finset ι) (b : EReal) (f : ι → EReal) (hb : b < ⊤) (i : ι) (hi : i ∈ s)
    (h : ∀ i ∈ s, IsReal (f i)) : IsReal (s.fold max b f) :=
  isReal_of_bounds (bot_lt_fold_max s b f i hi (h i hi).bot_lt) (fold_max_lt_top s b f hb fun j hj => (h j hj).lt_top)

/-- The same with the maximum spelled as the float operation it is at the exact values. -/
theorem isReal_fold_maximumf {ι : Type} (s : Finset ι) (b : EReal) (f : ι → EReal) (hb : b < ⊤) (i : ι) (hi : i ∈ s)
    (h : ∀ i ∈ s, IsReal (f i)) : IsReal (s.fold (FloatOps.maximumf (F := Ideal) (φ := .f32)) b f) :=
  isReal_fold_max s b f hb i hi h

/-- The maximum of something below `⊤` with a real is real. -/
theorem isReal_max_of_lt_top {a x : EReal} (ha : a < ⊤) (hx : IsReal x) : IsReal (max a x) :=
  isReal_of_bounds (lt_of_lt_of_le hx.bot_lt (le_max_right a x)) (max_lt ha hx.lt_top)

/-! ### Vector operations that keep every entry real

  Layout operations (a change of format, a transpose, a shape cast, a broadcast) read one entry of their operand, so
  they keep "every entry is real" whatever the index they read; a sum of two such vectors, a contraction of two into
  a third, and a row maximum from below `⊤` over a non-empty axis keep it by the scalar facts above. -/

section Vectors

variable {s t : Shape} {φ ψ : FTy}

theorem isReal_truncf (v : FVec Ideal s φ) (h : ψ.bits < φ.bits) (hv : ∀ i, IsReal (v i)) (i : s.Idx) :
    IsReal ((truncf ψ v h : FVec Ideal s ψ) i) := hv i

theorem isReal_transpose (perm : List (Fin s.rank)) (v : FVec Ideal s φ) (h : s.Transposes perm t)
    (hv : ∀ i, IsReal (v i)) (j : t.Idx) : IsReal (transpose t perm v h j) := hv _

theorem isReal_shapeCast (v : FVec Ideal s φ) (h : s.ShapeCasts t) (hv : ∀ i, IsReal (v i)) (j : t.Idx) :
    IsReal (shapeCast t v h j) := hv _

theorem isReal_broadcastTo (v : FVec Ideal s φ) (h : s.Broadcasts t) (hv : ∀ i, IsReal (v i)) (j : t.Idx) :
    IsReal (broadcastTo t v h j) := hv _

theorem isReal_addf (a b : FVec Ideal s φ) (ha : ∀ i, IsReal (a i)) (hb : ∀ i, IsReal (b i)) (i : s.Idx) :
    IsReal (addf a b i) := (ha i).add (hb i)

/-- The zero splat is real. -/
theorem isReal_constant_zero (i : s.Idx) : IsReal ((constant s .f32 0x00000000#32 : FVec Ideal s .f32) i) := by
  show IsReal (Ideal.ofBits .f32 0x00000000#32)
  rw [Ideal.ofBits_zero_f32]; exact isReal_zero

/-- A contraction of real operands into a real accumulator is real: the accumulator's entry plus a finite sum of
    products. -/
theorem isReal_matmul {sl sr so : Shape} {φ₁ φ₂ : FTy} (d : DotDims sl sr so) (prec : Option ContractPrecision)
    (lhs : FVec Ideal sl φ₁) (rhs : FVec Ideal sr φ₂) (acc : FVec Ideal so .f32)
    (hl : ∀ i, IsReal (lhs i)) (hr : ∀ i, IsReal (rhs i)) (hacc : ∀ i, IsReal (acc i)) (j : so.Idx) :
    IsReal (matmul d prec lhs rhs acc j) := by
  show IsReal (acc j + ∑ k : d.contr.Idx, lhs (d.lhsIdx j k) * rhs (d.rhsIdx j k))
  exact (hacc j).add (isReal_sum _ _ fun k _ => (hl _).mul (hr _))

/-- A maximum along one non-empty axis, from an accumulator below `⊤`, of a vector of reals is real. -/
theorem isReal_rowmax {a : Fin s.rank} (src : FVec Ideal s .f32) (acc : BitVec 32) (h : s.Reduces [a] t)
    (hφ : FKind.Formats .f32) (hacc : acc = FKind.maximumf.neutral .f32 hφ) (hlt : Ideal.ofBits .f32 acc < ⊤)
    (hpos : 0 < s.size a) (hsrc : ∀ i, IsReal (src i)) (j : t.Idx) :
    IsReal (multiReduction .maximumf [a] t src acc h hφ hacc j) := by
  rw [Ideal.multiReduction_maximumf_single]
  exact isReal_fold_max _ _ _ hlt ⟨0, hpos⟩ (Finset.mem_univ _) fun k _ => hsrc _

end Vectors

/-! ### The literals both programs spell -/

/-- `-inf`, the value both row maxima start from. -/
theorem ofBits_neg_inf : Ideal.ofBits .f32 0xFF800000#32 = ⊥ := by
  simp [Ideal.ofBits, Ideal.ieee]

/-- `1.0`, the length of the axis the mean is taken over. -/
theorem ofBits_one : Ideal.ofBits .f32 0x3F800000#32 = ((1 : ℝ) : EReal) := by
  simp [Ideal.ofBits, Ideal.ieee, -EReal.coe_mul]; norm_num

/-! ### The centred value of a real is zero -/

/-- `μ - μ / 1 = 0` for a real `μ`. -/
theorem sub_div_one_self {x : EReal} (hx : IsReal x) : x - Ideal.div x ((1 : ℝ) : EReal) = 0 := by
  obtain ⟨r, rfl⟩ := hx
  rw [Ideal.div_coe one_ne_zero, ← EReal.coe_mul, ← EReal.coe_sub]
  norm_num

end Cert.RealValued

end
-- ==== Proof.FiniteInputs.lean ====
/-
  What the precondition says: every entry of `x`, `W` and `b` is a real number.

  The precondition is the conjunction of three `all(|a| < +inf)`. Each `all` that holds gives the comparison at every
  index; `+inf` is `⊤`; and an extended real whose absolute value `max a (-a)` is below `⊤` is neither `⊤` nor `⊥`.
-/
import proofs.«139583_j25056839205334_1_alg».proof.Pre_finite_inputs
import proofs.«139583_j25056839205334_1_alg».proof.Proof.RealValued
import Idealize.ShloMosaic.Lib.ReduceAll
import Idealize.ShloMosaic.Lib.ValueIdx

noncomputable section

namespace Cert.FiniteInputs

open Idealize.ShloMosaic Cert.RealValued

instance : Subsingleton Cert.Pre_finite_inputs.S_.Idx := ⟨fun a b => funext fun d => d.elim0⟩

/-- `+inf` is the top of the extended reals. -/
theorem ofBits_inf : Ideal.ofBits .f32 0x7F800000#32 = ⊤ := by
  simp [Ideal.ofBits, Ideal.ieee]

/-- An extended real whose absolute value compares below `+inf` is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    have h0 : Ideal.cmp .olt (max x (-x)) ⊤ = 0#1 := by
      unfold Ideal.cmp; simp [hn]
    rw [h0] at h
    exact absurd h (by decide)
  induction x using EReal.rec with
  | bot => simp at hlt
  | coe r => exact ⟨r, rfl⟩
  | top => simp at hlt

/-- Under the precondition all three inputs are real entry by entry. -/
theorem of_pre [Cert.Pre_finite_inputs.Facts] (a0 a1 : FVec Ideal Cert.Pre_finite_inputs.S4096x4096 .f32)
    (a2 : FVec Ideal Cert.Pre_finite_inputs.S4096 .f32)
    (h : Cert.Pre_finite_inputs.fn (F := Ideal) a0 a1 a2 = fun _ => 1#1) :
    (∀ i, IsReal (a0 i)) ∧ (∀ i, IsReal (a1 i)) ∧ (∀ i, IsReal (a2 i)) := by
  have h' := congrFun h ValueIdx.ix0
  dsimp only [Cert.Pre_finite_inputs.fn, andi] at h'
  obtain ⟨h01, h2⟩ := IntOp.andi_eq_one.1 h'
  obtain ⟨h0, h1⟩ := IntOp.andi_eq_one.1 h01
  exact ⟨fun i => isReal_of_abs_lt_inf _ (Host.reduce_andi_all _ _ _ _ _ h0 i),
    fun i => isReal_of_abs_lt_inf _ (Host.reduce_andi_all _ _ _ _ _ h1 i),
    fun i => isReal_of_abs_lt_inf _ (Host.reduce_andi_all _ _ _ _ _ h2 i)⟩

end Cert.FiniteInputs

end
-- ==== Proof.RefValue.lean ====
/-
  The reference ends at the zero array.

  Its result is `c * (…)` with `c = μ - (0 + μ) / 1`, `μ` the row maximum of `x · Wᵀ + b` (the mean over an axis of
  length one is the entry itself). For real inputs every entry of `x · Wᵀ + b` is a finite sum of products of reals
  plus a real; the maximum over a row's 4096 entries taken from `-inf` is then real; so `c = 0`, and `0` times
  anything is `0` on the extended reals.
-/
import proofs.«139583_j25056839205334_1_alg».proof.Proof.Gen.ReferenceIdeal.Read
import proofs.«139583_j25056839205334_1_alg».proof.Proof.RealValued

noncomputable section

namespace Cert.ReferenceIdeal.RefValue

open Cert.ReferenceIdeal Cert.ReferenceIdeal.Gen Cert.ReferenceIdeal.Read Idealize.ShloMosaic Idealize.ShloMosaic.TcCoe
open Cert.RealValued

variable (x0 x1 : (⟨S4096x4096, .f32⟩ : BufTy).Contents (Elt Ideal)) (x2 : (⟨S4096, .f32⟩ : BufTy).Contents (Elt Ideal))

/-- Every entry of `x · Wᵀ + b` is real. -/
theorem affine_isReal (h0 : ∀ i, IsReal (x0 i)) (h1 : ∀ i, IsReal (x1 i)) (h2 : ∀ i, IsReal (x2 i)) (i : S4096x4096.Idx) :
    IsReal (val_main_v3 (F := Ideal) x0 x1 x2 i) := by
  rw [val_main_v3_apply, val_main_v0_apply, val_main_v2_apply, val_main_v1_apply]
  exact (isReal_sum _ _ fun k _ => (h0 _).mul (h1 _)).add (h2 _)

/-- Every row's maximum is real: the fold of `max` from `-inf` over the row's 4096 real entries. -/
theorem rowmax_isReal (h0 : ∀ i, IsReal (x0 i)) (h1 : ∀ i, IsReal (x1 i)) (h2 : ∀ i, IsReal (x2 i)) (j : S4096.Idx) :
    IsReal (val_main_v4 (F := Ideal) x0 x1 x2 j) := by
  unfold val_main_v4
  rw [Host.reduce_eq_fold_single FloatOps.maximumf _ _ reducesTo_S4096x4096_S4096_d1 (by decide) h_S_ j]
  refine isReal_fold_maximumf _ _ _ ?_ ⟨0, by decide⟩ (Finset.mem_univ _) fun k _ => affine_isReal x0 x1 x2 h0 h1 h2 _
  show Ideal.ofBits .f32 0xFF800000#32 < ⊤
  rw [ofBits_neg_inf]; exact bot_lt_top

/-- The centred value `μ - mean μ` is zero at every row. -/
theorem centred_zero (h0 : ∀ i, IsReal (x0 i)) (h1 : ∀ i, IsReal (x1 i)) (h2 : ∀ i, IsReal (x2 i)) (i : S4096x1.Idx) :
    (val_main_v10 (F := Ideal) x0 x1 x2 i : EReal) = 0 := by
  have h5 : IsReal (val_main_v5 (F := Ideal) x0 x1 x2 i) := by
    rw [val_main_v5_apply]; exact rowmax_isReal x0 x1 x2 h0 h1 h2 _
  -- the mean's one summand is the entry itself
  have e : (∑ k : Fin 1, val_main_v5 (F := Ideal) x0 x1 x2 (idx_main_v6 (idx_main_v7 i) k))
      = val_main_v5 (F := Ideal) x0 x1 x2 i := by
    rw [Fin.sum_univ_one]
    refine congrArg _ (funext fun a => Fin.ext ?_)
    match a with
    | ⟨0, _⟩ => rfl
    | ⟨1, _⟩ => have hi : (i 1).val < 1 := (i 1).isLt; show (0 : ℕ) = (i 1).val; omega
  rw [val_main_v10_apply, val_main_v9_apply, val_main_v7_apply, val_main_v6_apply, val_main_v8_apply,
    val_main_cst_1_apply, val_main_cst_0_apply, e]
  show val_main_v5 (F := Ideal) x0 x1 x2 i
      - Ideal.div (Ideal.ofBits .f32 0x00000000#32 + val_main_v5 (F := Ideal) x0 x1 x2 i) (Ideal.ofBits .f32 0x3F800000#32) = 0
  rw [Ideal.ofBits_zero_f32, zero_add, ofBits_one]
  exact sub_div_one_self h5

/-- The reference's result is the zero array. -/
theorem result_zero (h0 : ∀ i, IsReal (x0 i)) (h1 : ∀ i, IsReal (x1 i)) (h2 : ∀ i, IsReal (x2 i)) :
    val_main_v23 (F := Ideal) x0 x1 x2 = fun _ => (0 : EReal) := by
  funext i
  rw [val_main_v23_apply]
  show (val_main_v10 (F := Ideal) x0 x1 x2 i : EReal) * _ = 0
  rw [centred_zero x0 x1 x2 h0 h1 h2 i]
  exact zero_mul _

end Cert.ReferenceIdeal.RefValue

end
-- ==== Proof.KernelPieces.lean ====
/-
  What each of the body's five control cases leaves in the accumulator scratch, in the row-maximum scratch and in
  the output block, as the body's stored values applied to the blocks and scratch contents the case starts from.

  A case's run records, per buffer, the stores it made; every buffer it stores into is stored whole, so reading the
  stores back gives the last store's value, and a load that follows a store of the same buffer reads that store's
  value. The grid sweeps, for each block of 1024 rows, four column blocks of eight contraction steps each:
  the first step of a sweep resets both scratch buffers, the first step of a column block resets the accumulator,
  the last step of a column block folds the accumulator's row maxima into the row-maximum scratch, and the last
  step of the sweep also writes the output block.
-/
import proofs.«139583_j25056839205334_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- At the first point of a row block's sweep the accumulator is reset and then updated: it ends at `0 + x_blk · w_blkᵀ`. -/
theorem acc_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : cond0_0 i) (hc1 : cond0_1 i) (hc2 : ¬cond0_2 i) (hc3 : ¬cond0_3 i)
    (x0 : Vec F S1024x512 .f32) (x1 : Vec F S1024x512 .f32) (x2 : Vec F S1x1024 .f32) :
    sout0_A_0 c i arg3 harg3 arg4 harg4 arg5 harg5 arg6 harg6 arg7 harg7 arg8 harg8 hc0 hc1 hc2 hc3 x0 x1 x2 = k0_pay3 x0 x1 (k0_pay2 (F := F)) := by
  unfold sout0_A_0
  rw [View.read_writes_eq_canon _ _ _ (scover0_A_0 c i arg3 harg3 arg4 harg4 arg5 harg5 arg6 harg6 arg7 harg7 arg8 harg8 hc0 hc1 hc2 hc3 x0 x1 x2)]
  unfold kernelRun0_A
  dsimp only
  sl_unfold_words
  rw [View.canon_cons_unit_zero (S := S1024x1024) hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- At the first point of a row block's sweep the row-maximum scratch is reset to `-inf`. -/
theorem max_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : cond0_0 i) (hc1 : cond0_1 i) (hc2 : ¬cond0_2 i) (hc3 : ¬cond0_3 i)
    (x0 : Vec F S1024x512 .f32) (x1 : Vec F S1024x512 .f32) (x2 : Vec F S1x1024 .f32) :
    sout0_A_1 c i arg3 harg3 arg4 harg4 arg5 harg5 arg6 harg6 arg7 harg7 arg8 harg8 hc0 hc1 hc2 hc3 x0 x1 x2 = k0_pay1 (F := F) := by
  unfold sout0_A_1
  rw [View.read_writes_eq_canon _ _ _ (scover0_A_1 c i arg3 harg3 arg4 harg4 arg5 harg5 arg6 harg6 arg7 harg7 arg8 harg8 hc0 hc1 hc2 hc3 x0 x1 x2)]
  unfold kernelRun0_A
  dsimp only
  sl_unfold_words
  rw [View.canon_unit_zero hz]

/-- At an inner contraction step the accumulator gains the step's block product. -/
theorem acc_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : ¬cond0_1 i) (hc2 : ¬cond0_2 i) (hc3 : ¬cond0_3 i)
    (x0 : Vec F S1024x512 .f32) (x1 : Vec F S1024x512 .f32) (x2 : Vec F S1x1024 .f32) (xs0 : Vec F S1024x1024 .f32) (xs1 : Vec F S1024x1 .f32) :
    sout0_B_0 c i arg3 harg3 arg4 harg4 arg5 harg5 arg6 harg6 arg7 harg7 arg8 harg8 hc0 hc1 hc2 hc3 x0 x1 x2 xs0 xs1 = k0_pay3 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 x2 xs0 xs1)]
  unfold kernelRun0_B
  dsimp only
  sl_unfold_words
  rw [View.canon_unit_zero hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- At the last contraction step of a column block the accumulator gains the step's block product, -/
theorem acc_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : ¬cond0_1 i) (hc2 : cond0_2 i) (hc3 : ¬cond0_3 i)
    (x0 : Vec F S1024x512 .f32) (x1 : Vec F S1024x512 .f32) (x2 : Vec F S1x1024 .f32) (xs0 : Vec F S1024x1024 .f32) (xs1 : Vec F S1024x1 .f32) :
    sout0_C_0 c i arg3 harg3 arg4 harg4 arg5 harg5 arg6 harg6 arg7 harg7 arg8 harg8 hc0 hc1 hc2 hc3 x0 x1 x2 xs0 xs1 = k0_pay3 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 x2 xs0 xs1)]
  unfold kernelRun0_C
  dsimp only
  sl_unfold_words
  rw [View.canon_unit_zero hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- and the row-maximum scratch takes in the row maxima of the finished accumulator plus the bias block. -/
theorem max_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : ¬cond0_1 i) (hc2 : cond0_2 i) (hc3 : ¬cond0_3 i)
    (x0 : Vec F S1024x512 .f32) (x1 : Vec F S1024x512 .f32) (x2 : Vec F S1x1024 .f32) (xs0 : Vec F S1024x1024 .f32) (xs1 : Vec F S1024x1 .f32) :
    sout0_C_1 c i arg3 harg3 arg4 harg4 arg5 harg5 arg6 harg6 arg7 harg7 arg8 harg8 hc0 hc1 hc2 hc3 x0 x1 x2 xs0 xs1 = k0_pay4 (k0_pay3 x0 x1 xs0) x2 xs1 := by
  unfold sout0_C_1
  rw [View.read_writes_eq_canon _ _ _ (scover0_C_1 c i arg3 harg3 arg4 harg4 arg5 harg5 arg6 harg6 arg7 harg7 arg8 harg8 hc0 hc1 hc2 hc3 x0 x1 x2 xs0 xs1)]
  unfold kernelRun0_C
  dsimp only
  sl_unfold_words
  rw [View.canon_unit_zero hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- At the first contraction step of a later column block the accumulator is reset and then updated. -/
theorem acc_D (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : cond0_1 i) (hc2 : ¬cond0_2 i) (hc3 : ¬cond0_3 i)
    (x0 : Vec F S1024x512 .f32) (x1 : Vec F S1024x512 .f32) (x2 : Vec F S1x1024 .f32) (xs1 : Vec F S1024x1 .f32) :
    sout0_D_0 c i arg3 harg3 arg4 harg4 arg5 harg5 arg6 harg6 arg7 harg7 arg8 harg8 hc0 hc1 hc2 hc3 x0 x1 x2 xs1 = k0_pay3 x0 x1 (k0_pay2 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 x2 xs1)]
  unfold kernelRun0_D
  dsimp only
  sl_unfold_words
  rw [View.canon_cons_unit_zero (S := S1024x1024) hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- At the last point of a row block's sweep the accumulator gains the step's block product, -/
theorem acc_E (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : ¬cond0_1 i) (hc2 : cond0_2 i) (hc3 : cond0_3 i)
    (x0 : Vec F S1024x512 .f32) (x1 : Vec F S1024x512 .f32) (x2 : Vec F S1x1024 .f32) (xs0 : Vec F S1024x1024 .f32) (xs1 : Vec F S1024x1 .f32) :
    sout0_E_0 c i arg3 harg3 arg4 harg4 arg5 harg5 arg6 harg6 arg7 harg7 arg8 harg8 hc0 hc1 hc2 hc3 x0 x1 x2 xs0 xs1 = k0_pay3 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- the row-maximum scratch takes in the last column block's row maxima, -/
theorem max_E (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : ¬cond0_1 i) (hc2 : cond0_2 i) (hc3 : cond0_3 i)
    (x0 : Vec F S1024x512 .f32) (x1 : Vec F S1024x512 .f32) (x2 : Vec F S1x1024 .f32) (xs0 : Vec F S1024x1024 .f32) (xs1 : Vec F S1024x1 .f32) :
    sout0_E_1 c i arg3 harg3 arg4 harg4 arg5 harg5 arg6 harg6 arg7 harg7 arg8 harg8 hc0 hc1 hc2 hc3 x0 x1 x2 xs0 xs1 = k0_pay4 (k0_pay3 x0 x1 xs0) x2 xs1 := by
  unfold sout0_E_1
  rw [View.read_writes_eq_canon _ _ _ (scover0_E_1 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

/-- and the output block is the centred-and-activated value of that final row maximum. -/
theorem out_E (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1 .f32) (harg8 : arg8.IsWhole)
    (hc0 : ¬cond0_0 i) (hc1 : ¬cond0_1 i) (hc2 : cond0_2 i) (hc3 : cond0_3 i)
    (x0 : Vec F S1024x512 .f32) (x1 : Vec F S1024x512 .f32) (x2 : Vec F S1x1024 .f32) (xs0 : Vec F S1024x1024 .f32) (xs1 : Vec F S1024x1 .f32) :
    out0_E_3 c i arg3 harg3 arg4 harg4 arg5 harg5 arg6 harg6 arg7 harg7 arg8 harg8 hc0 hc1 hc2 hc3 x0 x1 x2 xs0 xs1 = k0_pay5 (k0_pay4 (k0_pay3 x0 x1 xs0) x2 xs1) := by
  unfold out0_E_3
  rw [View.read_writes_eq_canon _ _ _ (cover0_E_3 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero hz]
  simp only [View.readAt_eq_ld, harg3.read_unread, harg4.read_unread, harg5.read_unread, harg7.read_unread,
    harg8.read_unread, View.ld_unit_zero (S := S1024x512) hz, View.ld_unit_zero (S := S1024x1024) hz,
    View.ld_unit_zero (S := S1x1024) hz, View.ld_unit_zero (S := S1024x1) hz,
    View.readCov_unit_zero (S := S1024x1024) _ hz, View.readCov_unit_zero (S := S1024x1) _ hz]

end Cert.KernelIdeal.Pieces

end
-- ==== Proof.KernelPayloads.lean ====
/-
  The kernel body's five stored values at the exact values.

  * the row-maximum scratch is reset to `-inf`, which is below `⊤`;
  * the accumulator is reset to zero, which is real;
  * the accumulator update `acc + x_blk · w_blkᵀ` of real blocks and a real accumulator is real;
  * the row-maximum update `max μ (rowmax (acc + b))` of a real accumulator, a real bias block and a `μ` below `⊤` is real
    (the row has 1024 entries, so its maximum from `-inf` is real, and the maximum of something below `⊤` with a real is real);
  * the output `c * (…)` with `c = μ - (sum over the unit axis of μ) / 1` is zero at every row once `μ` is real.
-/
import proofs.«139583_j25056839205334_1_alg».proof.Proof.Gen.KernelIdeal.Skeleton
import proofs.«139583_j25056839205334_1_alg».proof.Proof.RealValued
import Idealize.ShloMosaic.Lib.Pipeline.Value
import Idealize.ShloMosaic.Lib.ValueIdx

noncomputable section

namespace Cert.KernelIdeal.Payloads

open Cert.KernelIdeal Cert.KernelIdeal.Gen Idealize.ShloMosaic Idealize.ShloMosaic.TcCoe Cert.RealValued

/-- The row-maximum scratch starts below `⊤`. -/
theorem pay1_lt_top (y : S1024x1.Idx) : ((k0_pay1 (F := Ideal)) y : EReal) < ⊤ := by
  show Ideal.ofBits .f32 0xFF800000#32 < ⊤
  rw [ofBits_neg_inf]; exact bot_lt_top

/-- The accumulator starts real. -/
theorem pay2_isReal (y : S1024x1024.Idx) : IsReal ((k0_pay2 (F := Ideal)) y) := by
  show IsReal (Ideal.ofBits .f32 0x00000000#32)
  rw [Ideal.ofBits_zero_f32]; exact isReal_zero

/-- The accumulator update keeps it real. -/
theorem pay3_isReal (v8 v10 : Vec Ideal S1024x512 .f32) (v12 : Vec Ideal S1024x1024 .f32)
    (h8 : ∀ i, IsReal (v8 i)) (h10 : ∀ i, IsReal (v10 i)) (h12 : ∀ i, IsReal (v12 i)) (y : S1024x1024.Idx) :
    IsReal (k0_pay3 (F := Ideal) v8 v10 v12 y) := by
  unfold k0_pay3
  exact isReal_shapeCast _ _ (isReal_addf _ _ h12
    (isReal_matmul _ _ _ _ _ (isReal_truncf _ _ h8) (isReal_transpose _ _ _ (isReal_truncf _ _ h10))
      isReal_constant_zero)) y

/-- The row-maximum update is real as soon as the scratch it reads is below `⊤`. -/
theorem pay4_isReal (v27 : Vec Ideal S1024x1024 .f32) (v28 : Vec Ideal S1x1024 .f32) (v34 : Vec Ideal S1024x1 .f32)
    (h27 : ∀ i, IsReal (v27 i)) (h28 : ∀ i, IsReal (v28 i)) (h34 : ∀ i, (v34 i : EReal) < ⊤) (y : S1024x1.Idx) :
    IsReal (k0_pay4 (F := Ideal) v27 v28 v34 y) := by
  unfold k0_pay4
  refine isReal_shapeCast _ _ (fun i => ?_) y
  exact isReal_max_of_lt_top (h34 i) (isReal_shapeCast _ _
    (isReal_rowmax _ _ _ _ _ (by rw [ofBits_neg_inf]; exact bot_lt_top) (by decide)
      (isReal_addf _ _ h27 (isReal_broadcastTo (φ := .f32) _ _ (isReal_shapeCast (φ := .f32) _ _ h28)))) i)

/-- The row a column entry sits in. -/
abbrev rowOf (y : S1024x1.Idx) : S1024.Idx := fun a => match a with
  | ⟨0, _⟩ => ⟨(y 0).val, (y 0).isLt⟩

/-- The sum of a column vector over its unit axis, put back as a column, is the vector. -/
theorem sum_unit_axis (v27 : FVec Ideal S1024x1 .f32) (hacc : (0x00000000#32 : BitVec 32) = FKind.add.neutral .f32 (.inl rfl))
    (y : S1024x1.Idx) :
    shapeCast S1024x1 (multiReduction .add [1] S1024 v27 0x00000000#32 reduces_S1024x1_S1024 (.inl rfl) hacc)
      shapeCasts_S1024_S1024x1 y = v27 y := by
  have hy : (y 1).val < 1 := (y 1).isLt
  refine (shapeCast_apply _ shapeCasts_S1024_S1024x1 y (rowOf y) ?_).trans ?_
  · rw [Shape.rowMajor_val_one, Shape.rowMajor_val_two]
    show (y 0).val = (y 0).val * 1 + (y 1).val
    omega
  · refine (Ideal.multiReduction_add_single v27 _ reduces_S1024x1_S1024 (.inl rfl) hacc _).trans ?_
    show ∑ k : Fin 1, v27 (reduces_S1024x1_S1024.lift (rowOf y) k) = v27 y
    rw [Fin.sum_univ_one]
    refine congrArg v27 (funext fun a => Fin.ext ?_)
    match a with
    | ⟨0, _⟩ => rfl
    | ⟨1, _⟩ => show (0 : ℕ) = (y 1).val; omega

/-- The output block is zero wherever the row maxima it reads are real. -/
theorem pay5_zero (v27 : Vec Ideal S1024x1 .f32) (h27 : ∀ i, IsReal (v27 i)) (y : S1024x1.Idx) :
    (k0_pay5 (F := Ideal) v27 y : EReal) = 0 := by
  have hc : (v27 y : EReal) - Ideal.div
      (shapeCast S1024x1 (multiReduction (F := Ideal) .add [1] S1024 v27 0x00000000#32 reduces_S1024x1_S1024 (.inl rfl) rfl)
        shapeCasts_S1024_S1024x1 y) (Ideal.ofBits .f32 0x3F800000#32) = 0 := by
    rw [sum_unit_axis v27 rfl y, ofBits_one]
    exact sub_div_one_self (h27 y)
  unfold k0_pay5
  show ((v27 y : EReal) - Ideal.div
      (shapeCast S1024x1 (multiReduction (F := Ideal) .add [1] S1024 v27 0x00000000#32 reduces_S1024x1_S1024 (.inl rfl) rfl)
        shapeCasts_S1024_S1024x1 y) (Ideal.ofBits .f32 0x3F800000#32)) * _ = 0
  rw [hc]; exact zero_mul _

end Cert.KernelIdeal.Payloads

end
-- ==== Proof.KernelInvariant.lean ====
/-
  The invariant of the kernel's sweep, at the exact values, for real inputs.

  After every grid point the accumulator scratch holds real numbers and the row-maximum scratch holds values below `⊤`:
  a reset stores `0` resp. `-inf`; an accumulator update adds a finite sum of products of reals to a real; a
  row-maximum update takes the maximum of a value below `⊤` with the (real) maximum of 1024 reals, which is real.
  At the last point of a row block's sweep the row maximum just stored is therefore real, and the output block, which is
  `c * (…)` with `c` that row maximum minus its mean over an axis of length one, is zero.
-/
import proofs.«139583_j25056839205334_1_alg».proof.Proof.KernelPieces
import proofs.«139583_j25056839205334_1_alg».proof.Proof.KernelPayloads

noncomputable section

namespace Cert.KernelIdeal.Invariant

open Cert.KernelIdeal Cert.KernelIdeal.Gen Cert.KernelIdeal.Pieces Cert.KernelIdeal.Payloads Cert.RealValued
open Idealize.ShloMosaic Idealize.ShloMosaic.TcCoe Idealize.SL.Sem

variable (m : (ℓ : Loc nD τ sig) → Buf (Elt Ideal) ℓ) (c : Dev nD)

theorem isReal_of_eq {a b : EReal} (e : a = b) (h : IsReal b) : IsReal a := e ▸ h

/-- The three arrays the kernel's input windows stage (`x`, `W` and the bias as a row) are real entry by entry. -/
structure RealArrays : Prop where
  x : ∀ i, IsReal (V m c (Pipeline.arrRef spec0 0) i)
  w : ∀ i, IsReal (V m c (Pipeline.arrRef spec0 1) i)
  b : ∀ i, IsReal (V m c (Pipeline.arrRef spec0 2) i)

variable {m c}

/-- Every block a window reads off a real array is real. -/
theorem blk0_isReal (hr : RealArrays m c) (t : Fin cfg0.N) (y : S1024x512.Idx) :
    IsReal ((iblk m c 0 t : Vec Ideal S1024x512 .f32) y) := by
  unfold iblk; rw [View.read_apply]; exact hr.x _
theorem blk1_isReal (hr : RealArrays m c) (t : Fin cfg0.N) (y : S1024x512.Idx) :
    IsReal ((iblk m c 1 t : Vec Ideal S1024x512 .f32) y) := by
  unfold iblk; rw [View.read_apply]; exact hr.w _
theorem blk2_isReal (hr : RealArrays m c) (t : Fin cfg0.N) (y : S1x1024.Idx) :
    IsReal ((iblk m c 2 t : Vec Ideal S1x1024 .f32) y) := by
  unfold iblk; rw [View.read_apply]; exact hr.b _

variable (m c)

/-- After point `n`: the accumulator scratch is real, the row-maximum scratch is below `⊤`. -/
def Inv (n : ℕ) (h : n < cfg0.N) : Prop :=
  (∀ y, IsReal ((outsAt0 m c n h).2.1 y)) ∧ (∀ y, ((outsAt0 m c n h).2.2 y : EReal) < ⊤)

variable {m c}

/-- One point keeps the invariant (the first point of a sweep establishes it from nothing). -/
theorem inv_step (hr : RealArrays m c) (t : Fin cfg0.N)
    (hprev : t.val ≠ 0 → Inv m c (t.val - 1) (Nat.lt_of_le_of_lt (Nat.sub_le _ _) t.isLt)) :
    Inv m c t.val t.isLt := by
  have hN : t.val < 128 := lt_of_lt_of_eq t.isLt (show cfg0.N = 128 from N_0)
  unfold Inv
  by_cases h0 : t.val % 32 = 0
  · have h1 : t.val % 8 = 0 := by omega
    have h2 : ¬t.val % 8 = 7 := by omega
    have h3 : ¬t.val % 32 = 31 := by omega
    rw [outsAt0_A m c t h0 h1 h2 h3]; dsimp only
    exact ⟨fun y => isReal_of_eq
        (congrFun (acc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t)) y)
        (pay3_isReal _ _ _ (blk0_isReal hr t) (blk1_isReal hr t) pay2_isReal y),
      fun y => lt_of_eq_of_lt
        (congrFun (max_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t)) y)
        (pay1_lt_top y)⟩
  · have hz : t.val ≠ 0 := fun e => h0 (by rw [e])
    obtain ⟨pA, pM⟩ := hprev hz
    by_cases h1 : t.val % 8 = 0
    · have h2 : ¬t.val % 8 = 7 := by omega
      have h3 : ¬t.val % 32 = 31 := by omega
      rw [outsAt0_D m c t h0 h1 h2 h3]; dsimp only
      exact ⟨fun y => isReal_of_eq
          (congrFun (acc_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2) y)
          (pay3_isReal _ _ _ (blk0_isReal hr t) (blk1_isReal hr t) pay2_isReal y),
        pM⟩
    · by_cases h2 : t.val % 8 = 7
      · by_cases h3 : t.val % 32 = 31
        · rw [outsAt0_E m c t h0 h1 h2 h3]; dsimp only
          exact ⟨fun y => isReal_of_eq
              (congrFun (acc_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) y)
              (pay3_isReal _ _ _ (blk0_isReal hr t) (blk1_isReal hr t) pA y),
            fun y => (isReal_of_eq
              (congrFun (max_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) y)
              (pay4_isReal _ _ _ (pay3_isReal _ _ _ (blk0_isReal hr t) (blk1_isReal hr t) pA) (blk2_isReal hr t) pM y)).lt_top⟩
        · rw [outsAt0_C m c t h0 h1 h2 h3]; dsimp only
          exact ⟨fun y => isReal_of_eq
              (congrFun (acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) y)
              (pay3_isReal _ _ _ (blk0_isReal hr t) (blk1_isReal hr t) pA y),
            fun y => (isReal_of_eq
              (congrFun (max_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) y)
              (pay4_isReal _ _ _ (pay3_isReal _ _ _ (blk0_isReal hr t) (blk1_isReal hr t) pA) (blk2_isReal hr t) pM y)).lt_top⟩
      · have h3 : ¬t.val % 32 = 31 := by omega
        rw [outsAt0_B m c t h0 h1 h2 h3]; dsimp only
        exact ⟨fun y => isReal_of_eq
            (congrFun (acc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) y)
            (pay3_isReal _ _ _ (blk0_isReal hr t) (blk1_isReal hr t) pA y),
          pM⟩

/-- The invariant holds after every point. -/
theorem inv (hr : RealArrays m c) : ∀ (n : ℕ) (h : n < cfg0.N), Inv m c n h
  | 0, h => inv_step hr ⟨0, h⟩ fun e => absurd rfl e
  | n + 1, h => inv_step hr ⟨n + 1, h⟩ fun _ => inv hr n (Nat.lt_of_succ_lt h)

/-- At the last point of a row block's sweep the output block is zero. -/
theorem out_zero (hr : RealArrays m c) (t : Fin cfg0.N) (h0 : ¬t.val % 32 = 0) (h1 : ¬t.val % 8 = 0) (h2 : t.val % 8 = 7)
    (h3 : t.val % 32 = 31) (y : S1024x1.Idx) : ((outsAt0 m c t.val t.isLt).1 y : EReal) = 0 := by
  obtain ⟨pA, pM⟩ := inv hr (t.val - 1) (Nat.lt_of_le_of_lt (Nat.sub_le _ _) t.isLt)
  rw [outsAt0_E m c t h0 h1 h2 h3]; dsimp only
  exact (congrFun (out_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) y).trans
    (pay5_zero _ (pay4_isReal _ _ _ (pay3_isReal _ _ _ (blk0_isReal hr t) (blk1_isReal hr t) pA) (blk2_isReal hr t) pM) y)

end Cert.KernelIdeal.Invariant

end
-- ==== Proof.KernelValue.lean ====
/-
  The kernel's result array is the zero array, for real inputs.

  The output window's block for row block `q` is written back once, after the last point of that row block's sweep,
  where the invariant makes it zero; the four blocks of 1024 rows cover the `[4096, 1]` array. The arrays the input
  windows stage are `x`, `W` as launched and the bias reshaped to a row, so they are real when the inputs are.
-/
import proofs.«139583_j25056839205334_1_alg».proof.Proof.KernelInvariant
import proofs.«139583_j25056839205334_1_alg».proof.Proof.Gen.KernelIdeal.Value
import Idealize.ShloMosaic.Lib.StableHlo.Run

noncomputable section

namespace Cert.KernelIdeal.ZeroValue

open Cert.KernelIdeal Cert.KernelIdeal.Gen Cert.KernelIdeal.Value Cert.KernelIdeal.Invariant Cert.RealValued
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The zero contents of the output array. -/
abbrev zeroArr (c : Dev nD) : Buf (Elt Ideal) ((cfg0.win 3).arr.view.loc (c.tc : Thread nD τ)) := fun _ => (0 : EReal)

/-- Only the last point of a row block's sweep writes the output block back. -/
theorem flush_only_last : ∀ t : Fin cfg0.N, (cfg0.win 3).flush t = true → t.val % 32 = 31 :=
  (by decide +kernel : ∀ t : Fin grid0.N, (cfg0.win 3).flush t = true → t.val % 32 = 31)

/-- Every row block has such a point. -/
theorem last_points : ∀ q : Fin 4, ∃ t : Fin cfg0.N, (cfg0.win 3).flush t = true ∧ win0_3.index t = ![q.val, 0] :=
  (by decide +kernel : ∀ q : Fin 4, ∃ t : Fin grid0.N, (cfg0.win 3).flush t = true ∧ win0_3.index t = ![q.val, 0])

variable {m}

/-- What a flushing point writes back is its block of the zero array. -/
theorem flushed_zero {c : Dev nD} (hr : RealArrays m c) (t : Fin cfg0.N) (hf : (cfg0.win 3).flush t = true) :
    (dats m 0 c).flushed 3 t = ((cfg0.win 3).blk t).view.read (Elt Ideal) (zeroArr c) := by
  have h3 : t.val % 32 = 31 := flush_only_last t hf
  rw [flushed3]
  funext j
  rw [View.read_apply]
  exact out_zero hr t (by omega) (by omega) (by omega) h3 _

/-- An index of the output array is in point `t`'s block iff each coordinate is in the block's range. -/
theorem mem_blk (t : Fin cfg0.N) (i : S4096x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v1).slice (win0_3.rect t)).set ↔ _
  rw [View.set_slice_whole, Rect.mem_set_unit]
  exact Iff.rfl

/-- Every row of the output is in the block some flushing point writes back. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, hf, ht⟩ := last_points ⟨(i 0).val / 1024, by omega⟩
  have q0 : win0_3.index t (0 : Fin 2) = (i 0).val / 1024 := congrFun ht 0
  have q1 : win0_3.index t (1 : Fin 2) = 0 := congrFun ht 1
  refine ⟨t, hf, (mem_blk t i).2 fun a => ?_⟩
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1 ≤ (i 1).val ∧ (i 1).val < win0_3.index t (1 : Fin 2) * 1 + 1
    omega

/-- The output array after the run is the zero array. -/
theorem final_zero {c : Dev nD} (hr : RealArrays m c) : (dats m 0 c).arrAt 3 cfg0.N = zeroArr c :=
  (dats m 0 c).arrAt_eq_of_cover 3 (zeroArr c) (fun t hf => flushed_zero hr t hf) cover

variable (m)

/-- The arrays the input windows stage are real when the launched inputs are: `x` and `W` are staged as launched, the
    bias as its reshape to a row, each of whose entries is an entry of the bias. -/
theorem realArrays_of_inputs (c : Dev nD)
    (hx : ∀ i, IsReal (m ((c : Thread nD τ).loc main_arg0) i)) (hw : ∀ i, IsReal (m ((c : Thread nD τ).loc main_arg1) i))
    (hb : ∀ i, IsReal (m ((c : Thread nD τ).loc main_arg2) i)) : RealArrays m c where
  x := fun i => by
    show IsReal (V m c main_arg0 i)
    rw [V_main_arg0]; exact hx i
  w := fun i => by
    show IsReal (V m c main_arg1 i)
    rw [V_main_arg1]; exact hw i
  b := fun i => by
    have e : (V m c main_v0 : S1x4096.Idx → EReal)
        = shapeCast S1x4096 (m ((c : Thread nD τ).loc main_arg2)) shapeCasts_S4096_S1x4096 := by
      dsimp only [V, hostOps0]; after_results; rfl
    show IsReal ((V m c main_v0 : S1x4096.Idx → EReal) i)
    rw [e]; exact isReal_shapeCast (φ := .f32) _ _ hb i

/-- The kernel's run with its result named: the zero array, the arguments unchanged. -/
theorem run (hr : ∀ c, RealArrays m c) :
    θ_run defs (onTc (τ := τ) (main (F := Ideal))) ⟨m, fun _ => 0, ρ⟩ fun r => ∀ c : Dev nD,
      r.2.mem ((c : Thread nD τ).loc main_v1) = (fun _ => (0 : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_zero (hr c)), (h c).2⟩) (run_blocks m ρ)

end Cert.KernelIdeal.ZeroValue

end
-- ==== Proof.lean ====
/-
  The fused kernel `gelu(μ - mean μ)`, `μ` the row maximum of `x · Wᵀ + b`, against its jnp reference, over the
  extended reals, for finite inputs.

  Both programs take the mean of the `[4096, 1]` column `μ` over its axis of length one, so the centred value is
  `c = μ - (0 + μ) / 1`, and both end in `c * (0.5 * (1 + tanh (…)))`. On the extended reals `μ - μ = 0` exactly
  when `μ` is a real number, and `0 * y = 0` for every `y`. With finite inputs every entry of `x · Wᵀ + b` is real
  (a finite sum of products of reals plus a real), on the reference's side as one contraction of length 4096, on
  the kernel's side accumulated in eight blocks of 512 from a zero accumulator; a row's maximum from `-inf` is then
  real, taken over 4096 entries at once or folded block by block into a scratch that starts at `-inf`. So both
  result arrays are the zero array. The precondition is what rules out `μ = ±inf`, where `μ - μ` is not `0`.

  The frames of the two kernel programs are the generated frame certificates; the reference's frame is its generated
  run with the result dropped; the idealization rewrote nothing.
-/
import proofs.«139583_j25056839205334_1_alg».proof.Defs
import proofs.«139583_j25056839205334_1_alg».proof.Proof.Gen.Kernel
import proofs.«139583_j25056839205334_1_alg».proof.Proof.Gen.Kernel.Skeleton
import proofs.«139583_j25056839205334_1_alg».proof.Proof.Gen.Kernel.Launch
import proofs.«139583_j25056839205334_1_alg».proof.Proof.Gen.Kernel.Points
import proofs.«139583_j25056839205334_1_alg».proof.Proof.Gen.Kernel.Frame
import proofs.«139583_j25056839205334_1_alg».proof.Proof.Gen.KernelIdeal
import proofs.«139583_j25056839205334_1_alg».proof.Proof.Gen.KernelIdeal.Skeleton
import proofs.«139583_j25056839205334_1_alg».proof.Proof.Gen.KernelIdeal.Launch
import proofs.«139583_j25056839205334_1_alg».proof.Proof.Gen.KernelIdeal.Points
import proofs.«139583_j25056839205334_1_alg».proof.Proof.Gen.KernelIdeal.Frame
import proofs.«139583_j25056839205334_1_alg».proof.Proof.Gen.ReferenceIdeal
import proofs.«139583_j25056839205334_1_alg».proof.Proof.Gen.Pre_finite_inputs
import proofs.«139583_j25056839205334_1_alg».proof.Proof.Gen.KernelIdeal.Value
import proofs.«139583_j25056839205334_1_alg».proof.Proof.Gen.ReferenceIdeal.Run
import proofs.«139583_j25056839205334_1_alg».proof.Proof.Gen.ReferenceIdeal.Read
import proofs.«139583_j25056839205334_1_alg».proof.Proof.FiniteInputs
import proofs.«139583_j25056839205334_1_alg».proof.Proof.RefValue
import proofs.«139583_j25056839205334_1_alg».proof.Proof.KernelValue
import Idealize.ShloMosaic.Adequacy
import Idealize.ShloMosaic.Init

noncomputable section

namespace Cert.Proof

open Idealize.ShloMosaic Idealize.ShloMosaic.TcCoe Idealize.SL.Sem Cert.RealValued

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at the zero array: the kernel's by the sweep's invariant, the reference's by reading its
    operations at an index; what makes the centred value zero on both sides is that the row maxima are real, which the
    precondition gives. -/
theorem algebraic : Cert.algebraic_KernelIdeal_ReferenceIdeal := by
  intro m ρ m' ρ' hpre hagree
  have hreal := fun c : Dev Cert.KernelIdeal.nD => Cert.FiniteInputs.of_pre _ _ _ (hpre c)
  refine ⟨fun _ _ => (0 : EReal), ?_, ?_⟩
  · exact Cert.KernelIdeal.ZeroValue.run m ρ fun c =>
      Cert.KernelIdeal.ZeroValue.realArrays_of_inputs m c (hreal c).1 (hreal c).2.1 (hreal c).2.2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2]
    exact Cert.ReferenceIdeal.RefValue.result_zero _ _ _ (hreal c).1 (hreal c).2.1 (hreal c).2.2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
